-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S512x4096 : Shape := ⟨2, ![512, 4096]⟩
abbrev S4096x1024 : Shape := ⟨2, ![4096, 1024]⟩
abbrev S512x1024 : Shape := ⟨2, ![512, 1024]⟩
abbrev S8192x4096 : Shape := ⟨2, ![8192, 4096]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S4096x4096, .bf16⟩
  | .hbm, ⟨6, _⟩ => ⟨S4096, .bf16⟩
  | .hbm, ⟨7, _⟩ => ⟨S4096x1, .bf16⟩
  | .hbm, ⟨8, _⟩ => ⟨S4096x4096, .bf16⟩
  | .hbm, ⟨9, _⟩ => ⟨S8192x4096, .f32⟩
  | .hbm, ⟨10, _⟩ => ⟨S8192x4096, .f32⟩
  | .hbm, ⟨11, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1, .bf16⟩
  | .local _ .vmem, ⟨3, _⟩ => ⟨S4096x1024, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .f32⟩
  | .local _ .vmem, ⟨8, _⟩ => ⟨S512x4096, .f32⟩
  | .local _ .vmem, ⟨9, _⟩ => ⟨S512x4096, .bf16⟩
  | .local _ .vmem, ⟨10, _⟩ => ⟨S512x4096, .bf16⟩
  | .local _ .vmem, ⟨11, _⟩ => ⟨S512x512, .f32⟩
  | .local _ .vmem, ⟨12, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  shapeCasts_S4096_S4096x1 : S4096.ShapeCasts S4096x1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  shapeCasts_S4x2048x4096_S8192x4096 : S4x2048x4096.ShapeCasts S8192x4096
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S4096x1024_S512x1024_1_0_0_1_n_n_wf : DotDims.WF S512x4096 S4096x1024 S512x1024 [1] [0] [0] [1] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .bf16 = 32 ∨ (Rect.block (s := S4096x1) S4096x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x4096.size a
  hwx0_2 : ∀ i : grid0.Coords, EltTy.bits .bf16 = 32 ∨ (Rect.block (s := S4096x4096) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x4096.size a
  hwx1_2 : ∀ i : grid1.Coords, EltTy.bits .f32 = 32 ∨ (Rect.block (s := S8192x4096) S512x512.size (cc1_transform_2 i) (hinb1_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, over the extended reals.

  From a batch of rows x[b, s, ·] (4 × 2048 rows of length 4096), two square matrices U, Vh (4096 × 4096)
  and a vector S (length 4096):

    W[o, d]      = Σ_r U[o, r] · (S[r] · Vh[r, d])          (U · diag S · Vh)
    out[b, s, o] = Σ_d x[b, s, d] · W[o, d]                 (each row times Wᵀ)

  One program forms W in the order Vh[r, d] · S[r], with S laid out as a column, and multiplies the rows
  flattened to an 8192 × 4096 matrix; the other uses S[r] · Vh[r, d] and keeps the three axes. The two
  agree entry by entry by commutativity of the product alone: no sum is regrouped and no factor moves
  across a sum, so nothing here depends on the entries being finite.
-/
import Idealize.ShloMosaic.PureOps.Ideal
import Idealize.ShloMosaic.Lib.ValueIdx

noncomputable section

namespace Cert.LowRank

open Idealize.ShloMosaic Idealize.ShloMosaic.ValueIdx

/-- An a × b matrix of extended reals. -/
abbrev Mat (a b : Nat) : Type := (⟨2, ![a, b]⟩ : Shape).Idx → EReal

/-- The weight matrix with the scale given as a column: W[o, d] = Σ_r U[o, r] · (Vh[r, d] · S[r, 0]). -/
def weight (u : Mat 4096 4096) (scol : Mat 4096 1) (vh : Mat 4096 4096) : Mat 4096 4096 :=
  fun i => ∑ r : Fin 4096, u (ix2 (n0 := 4096) (n1 := 4096) (i 0) r) * (vh (ix2 (n0 := 4096) (n1 := 4096) r (i 1)) * scol (ix2 (n0 := 4096) (n1 := 1) r 0))

/-- Rows times the transposed weight: out[m, n] = Σ_d x[m, d] · W[n, d]. -/
def project (xf : Mat 8192 4096) (w : Mat 4096 4096) : Mat 8192 4096 :=
  fun i => ∑ d : Fin 4096, xf (ix2 (n0 := 8192) (n1 := 4096) (i 0) d) * w (ix2 (n0 := 4096) (n1 := 4096) (i 1) d)

/-- The result on three axes, the scale a vector: out[b, s, o] = Σ_d x[b, s, d] · Σ_r U[o, r] · (S[r] · Vh[r, d]). -/
def result (x : (⟨3, ![4, 2048, 4096]⟩ : Shape).Idx → EReal) (u : Mat 4096 4096)
    (s : (⟨1, ![4096]⟩ : Shape).Idx → EReal) (vh : Mat 4096 4096) : (⟨3, ![4, 2048, 4096]⟩ : Shape).Idx → EReal :=
  fun i => ∑ d : Fin 4096, x (ix3 (n0 := 4) (n1 := 2048) (n2 := 4096) (i 0) (i 1) d)
    * ∑ r : Fin 4096, u (ix2 (n0 := 4096) (n1 := 4096) (i 2) r) * (s (ix1 (n := 4096) r) * vh (ix2 (n0 := 4096) (n1 := 4096) r d))

/-- The flattened product is the three-axis result: when row b·2048 + s of the flat matrix is row (b, s) of x and
    the column holds the vector, entry (b·2048 + s, o) of rows · Wᵀ is entry (b, s, o) of the result. Term by term
    the two sums agree up to the order of one product. -/
theorem project_weight_eq (x : (⟨3, ![4, 2048, 4096]⟩ : Shape).Idx → EReal) (u : Mat 4096 4096)
    (s : (⟨1, ![4096]⟩ : Shape).Idx → EReal) (vh : Mat 4096 4096) (xf : Mat 8192 4096) (scol : Mat 4096 1)
    (hx : ∀ (b : Fin 4) (q : Fin 2048) (d : Fin 4096) (h : b.val * 2048 + q.val < 8192),
      xf (ix2 (n0 := 8192) (n1 := 4096) ⟨b.val * 2048 + q.val, h⟩ d) = x (ix3 b q d))
    (hs : ∀ r : Fin 4096, scol (ix2 (n0 := 4096) (n1 := 1) r 0) = s (ix1 r))
    (b : Fin 4) (q : Fin 2048) (o : Fin 4096) (h : b.val * 2048 + q.val < 8192) :
    project xf (weight u scol vh) (ix2 (n0 := 8192) (n1 := 4096) ⟨b.val * 2048 + q.val, h⟩ o) = result x u s vh (ix3 b q o) := by
  unfold project weight result
  refine Finset.sum_congr rfl fun d _ => ?_
  show xf (ix2 ⟨b.val * 2048 + q.val, h⟩ d) * _ = x (ix3 b q d) * _
  rw [hx b q d h]
  refine congrArg (x (ix3 b q d) * ·) (Finset.sum_congr rfl fun r _ => ?_)
  show u (ix2 o r) * (vh (ix2 r d) * scol (ix2 r 0)) = u (ix2 o r) * (s (ix1 r) * vh (ix2 r d))
  rw [hs r, mul_comm (vh (ix2 r d))]

end Cert.LowRank

end
-- ==== Proof.BuildW.lean ====
/-
  The first kernel region: what its output array holds when the region ends.

  The region walks a 4 × 8 grid; at point (j, i) it reads rows 512·i … 512·i+511 of U (all 4096 columns), the
  whole scale column, and columns 1024·j … 1024·j+1023 of Vh (all 4096 rows), and writes the 512 × 1024 block
  (i, j) of W. Inside a block, entry (p, q) is Σ_r U_blk[p, r] · (Vh_blk[r, q] · S[r, 0]): the product of the U
  rows with the row-scaled Vh columns, accumulated into zero. Because the contraction runs over the full axis
  inside every point, each block is the restriction of ONE whole-array function, the specification's weight,
  and the 32 blocks tile the 4096 × 4096 array.
-/
import proofs.«125711_j34248069218802_1_alg».proof.Proof.Gen.KernelIdeal.Frame
import proofs.«125711_j34248069218802_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.BuildW

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product at an entry -/

theorem lhs_axis0 (i : S512x1024.Idx) (k : dot_S512x4096_S4096x1024_S512x1024_1_0_0_1_n_n.contr.Idx) :
    (dot_S512x4096_S4096x1024_S512x1024_1_0_0_1_n_n.lhsIdx i k 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhs_axis1 (i : S512x1024.Idx) (k : dot_S512x4096_S4096x1024_S512x1024_1_0_0_1_n_n.contr.Idx) :
    (dot_S512x4096_S4096x1024_S512x1024_1_0_0_1_n_n.lhsIdx i k 1).val = (k ⟨0, by decide⟩).val :=
  dot_S512x4096_S4096x1024_S512x1024_1_0_0_1_n_n.lhsIdx_val_of_single rfl i k
theorem rhs_axis0 (i : S512x1024.Idx) (k : dot_S512x4096_S4096x1024_S512x1024_1_0_0_1_n_n.contr.Idx) :
    (dot_S512x4096_S4096x1024_S512x1024_1_0_0_1_n_n.rhsIdx i k 0).val = (k ⟨0, by decide⟩).val :=
  dot_S512x4096_S4096x1024_S512x1024_1_0_0_1_n_n.rhsIdx_val_of_single rfl i k
theorem rhs_axis1 (i : S512x1024.Idx) (k : dot_S512x4096_S4096x1024_S512x1024_1_0_0_1_n_n.contr.Idx) :
    (dot_S512x4096_S4096x1024_S512x1024_1_0_0_1_n_n.rhsIdx i k 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The scale column broadcast along the 1024 columns reads its row. -/
theorem scale_bcast (x1 : FVec Ideal S4096x1 .bf16) (r : Fin 4096) (q : Fin 1024) :
    broadcastTo S4096x1024 x1 broadcasts_S4096x1_S4096x1024 (ix2 r q) = x1 (ix2 (n0 := 4096) (n1 := 1) r 0) :=
  broadcastTo_apply x1 broadcasts_S4096x1_S4096x1024 (ix2 r q) (ix2 (n0 := 4096) (n1 := 1) r 0) (fun a => match a with
    | ⟨0, _⟩ => by show r.val = if (4096 : Nat) = 1 then 0 else r.val; rw [if_neg (by decide)]
    | ⟨1, _⟩ => by show 0 = if (1 : Nat) = 1 then 0 else q.val; rw [if_pos rfl])

/-- The body's stored value at entry (p, q) of the block: the row p of the U block against column q of the
    Vh block, each Vh entry scaled by its row's scale. -/
theorem payload_apply (x0 : FVec Ideal S512x4096 .bf16) (x1 : FVec Ideal S4096x1 .bf16) (x2 : FVec Ideal S4096x1024 .bf16)
    (p : Fin 512) (q : Fin 1024) :
    k0_pay1 (F := Ideal) x2 x1 x0 (ix2 p q)
      = ∑ r : Fin 4096, x0 (ix2 (n0 := 512) (n1 := 4096) p r) * (x2 (ix2 (n0 := 4096) (n1 := 1024) r q) * x1 (ix2 (n0 := 4096) (n1 := 1) r 0)) := by
  unfold k0_pay1
  show matmul dot_S512x4096_S4096x1024_S512x1024_1_0_0_1_n_n none (shapeCast S512x4096 x0 shapeCasts_S512x4096_S512x4096)
    (mulf (shapeCast S4096x1024 x2 shapeCasts_S4096x1024_S4096x1024) (broadcastTo S4096x1024 (shapeCast S4096x1 x1 shapeCasts_S4096x1_S4096x1) broadcasts_S4096x1_S4096x1024))
    (constant S512x1024 .f32 0x00000000#32) (ix2 p q) = _
  rw [shapeCast_self, shapeCast_self, shapeCast_self]
  simp only [matmul]
  rw [Ideal.matmul_constant_zero_apply, ← Equiv.sum_comp (contrEquiv1 dot_S512x4096_S4096x1024_S512x1024_1_0_0_1_n_n 4096 rfl rfl).symm]
  refine Finset.sum_congr rfl fun r _ => ?_
  have hr := contrEquiv1_symm_val dot_S512x4096_S4096x1024_S512x1024_1_0_0_1_n_n 4096 rfl rfl r
  have el : dot_S512x4096_S4096x1024_S512x1024_1_0_0_1_n_n.lhsIdx (ix2 p q) ((contrEquiv1 dot_S512x4096_S4096x1024_S512x1024_1_0_0_1_n_n 4096 rfl rfl).symm r) = ix2 (n0 := 512) (n1 := 4096) p r := funext fun a => Fin.ext (by
    match a with
    | ⟨0, _⟩ => exact lhs_axis0 _ _
    | ⟨1, _⟩ => exact (lhs_axis1 _ _).trans hr)
  have er : dot_S512x4096_S4096x1024_S512x1024_1_0_0_1_n_n.rhsIdx (ix2 p q) ((contrEquiv1 dot_S512x4096_S4096x1024_S512x1024_1_0_0_1_n_n 4096 rfl rfl).symm r) = ix2 (n0 := 4096) (n1 := 1024) r q := funext fun a => Fin.ext (by
    match a with
    | ⟨0, _⟩ => exact (rhs_axis0 _ _).trans hr
    | ⟨1, _⟩ => exact rhs_axis1 _ _)
  rw [el, er, mulf_apply, scale_bcast]

/-! ## A point's block is a block of the weight -/

variable (V : (c : Dev nD) → (b : Ref sig .tc) → Buf (Elt Ideal) ((c : Thread nD τ).loc b))

theorem hz : (![0, 0] : Fin 2 → Nat) = fun _ => 0 := funext fun a => by fin_cases a <;> rfl

/-- How the four windows move over the 32 grid points: the U block follows the output block's rows and spans every
    column; the scale column never moves; the Vh block spans every row and follows the output block's columns; the
    output block's indices stay below 8 and 4. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every one of the 8 × 4 output blocks is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- Entry (p, r) of the U block at point t is U at row (output block row)·512 + p, column r. -/
theorem ublk_apply (c : Dev nD) (t : Fin cfg0.N) (p : Fin 512) (r : Fin 4096) (i : S4096x4096.Idx)
    (h0 : (i 0).val = win0_3.index t (0 : Fin 2) * 512 + p.val) (h1 : (i 1).val = r.val) :
    iblk0 V c 0 t (ix2 p r) = V c main_v0 i := by
  obtain ⟨e0, e1, -⟩ := idx_facts t
  show V c main_v0 (((cfg0.win 0).blk t).view.emb (ix2 p r)) = V c main_v0 i
  refine congrArg (V c main_v0) (funext fun a => Fin.ext ?_)
  match a with
  | ⟨0, _⟩ => show win0_0.index t (0 : Fin 2) * 512 + 1 * p.val = (i 0).val; omega
  | ⟨1, _⟩ => show win0_0.index t (1 : Fin 2) * 4096 + 1 * r.val = (i 1).val; omega

/-- Entry (r, 0) of the scale block is the scale column's entry (r, 0). -/
theorem sblk_apply (c : Dev nD) (t : Fin cfg0.N) (r : Fin 4096) :
    iblk0 V c 1 t (ix2 (n0 := 4096) (n1 := 1) r 0) = V c main_v3 (ix2 (n0 := 4096) (n1 := 1) r 0) := by
  obtain ⟨-, -, e2, e3, -⟩ := idx_facts t
  show V c main_v3 (((cfg0.win 1).blk t).view.emb (ix2 (n0 := 4096) (n1 := 1) r 0)) = V c main_v3 (ix2 (n0 := 4096) (n1 := 1) r 0)
  refine congrArg (V c main_v3) (funext fun a => Fin.ext ?_)
  match a with
  | ⟨0, _⟩ => show win0_1.index t (0 : Fin 2) * 4096 + 1 * r.val = r.val; omega
  | ⟨1, _⟩ => show win0_1.index t (1 : Fin 2) * 1 + 1 * 0 = 0; omega

/-- Entry (r, q) of the Vh block at point t is Vh at row r, column (output block column)·1024 + q. -/
theorem vblk_apply (c : Dev nD) (t : Fin cfg0.N) (r : Fin 4096) (q : Fin 1024) (i : S4096x4096.Idx)
    (h0 : (i 0).val = r.val) (h1 : (i 1).val = win0_3.index t (1 : Fin 2) * 1024 + q.val) :
    iblk0 V c 2 t (ix2 r q) = V c main_v1 i := by
  obtain ⟨-, -, -, -, e4, e5, -⟩ := idx_facts t
  show V c main_v1 (((cfg0.win 2).blk t).view.emb (ix2 r q)) = V c main_v1 i
  refine congrArg (V c main_v1) (funext fun a => Fin.ext ?_)
  match a with
  | ⟨0, _⟩ => show win0_2.index t (0 : Fin 2) * 4096 + 1 * r.val = (i 0).val; omega
  | ⟨1, _⟩ => show win0_2.index t (1 : Fin 2) * 1024 + 1 * q.val = (i 1).val; omega

/-- WHAT POINT t WRITES BACK is block t of the weight of the arrays the region finds. -/
theorem flushed_eq (c : Dev nD) (t : Fin cfg0.N) :
    (dat0 V c).flushed 3 t = ((cfg0.win 3).blk t).view.read (Elt Ideal) (Cert.LowRank.weight (V c main_v0) (V c main_v3) (V c main_v1)) := by
  show (cfg0.win 3).cut (grid0.coords t) ((dat0 V c).after 3 t) = _
  rw [after0_3]
  unfold out0_3
  rw [View.canon_unit_zero hz]
  simp only [View.ld_unit_zero (S := S4096x1024) hz, View.ld_unit_zero (S := S4096x1) hz, View.ld_unit_zero (S := S512x4096) hz]
  funext j
  obtain ⟨p, q, rfl⟩ : ∃ (p : Fin 512) (q : Fin 1024), j = ix2 p q := ⟨j 0, j 1, eq_ix2 j⟩
  show k0_pay1 (F := Ideal) (iblk0 V c 2 t) (iblk0 V c 1 t) (iblk0 V c 0 t) (ix2 p q)
    = Cert.LowRank.weight (V c main_v0) (V c main_v3) (V c main_v1) (((cfg0.win 3).blk t).view.emb (ix2 p q))
  refine (payload_apply (iblk0 V c 0 t) (iblk0 V c 1 t) (iblk0 V c 2 t) p q).trans ?_
  unfold Cert.LowRank.weight
  refine Finset.sum_congr rfl fun r _ => ?_
  rw [ublk_apply V c t p r (ix2 (n0 := 4096) (n1 := 4096) ((((cfg0.win 3).blk t).view.emb (ix2 p q)) 0) r)
        (by show win0_3.index t (0 : Fin 2) * 512 + 1 * p.val = win0_3.index t (0 : Fin 2) * 512 + p.val; omega) rfl,
    vblk_apply V c t r q (ix2 (n0 := 4096) (n1 := 4096) r ((((cfg0.win 3).blk t).view.emb (ix2 p q)) 1)) rfl
        (by show win0_3.index t (1 : Fin 2) * 1024 + 1 * q.val = win0_3.index t (1 : Fin 2) * 1024 + q.val; omega),
    sblk_apply V c t r]

/-! ## The blocks tile the array -/

/-- An index of W is in point t's block iff each coordinate is in the block's range on its axis. -/
theorem mem_blk (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Entry (o, d) lies in the block with row index o / 512 and column index d / 1024. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY W when the region ends: the weight of the arrays the region found. -/
theorem array_eq (c : Dev nD) :
    (dat0 V c).arrAt 3 cfg0.N = Cert.LowRank.weight (V c main_v0) (V c main_v3) (V c main_v1) :=
  (dat0 V c).arrAt_eq_of_cover 3 _ (fun t _ => flushed_eq V c t) cover

end Cert.KernelIdeal.BuildW

end
-- ==== Proof.Project.lean ====
/-
  The second kernel region: what its output array holds when the region ends.

  The region walks a 16 × 8 grid; at point (im, jn) it reads rows 512·im … 512·im+511 of the flattened x and rows
  512·jn … 512·jn+511 of W, both with all 4096 columns, and writes the 512 × 512 block (im, jn) of the output.
  Inside a block, entry (p, q) is Σ_d x_blk[p, d] · W_blk[q, d]: both operands are contracted along their second
  axis, so the output is rows of x against rows of W. The contraction is over the full axis inside every
  point, so each block is the restriction of ONE whole-array function, the specification's projection, and the
  128 blocks tile the 8192 × 4096 array.
-/
import proofs.«125711_j34248069218802_1_alg».proof.Proof.Gen.KernelIdeal.Frame
import proofs.«125711_j34248069218802_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Project

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product at an entry -/

theorem lhs_axis0 (i : S512x512.Idx) (k : dot_S512x4096_S512x4096_S512x512_1_1_0_0_n_n.contr.Idx) :
    (dot_S512x4096_S512x4096_S512x512_1_1_0_0_n_n.lhsIdx i k 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_axis1 (i : S512x512.Idx) (k : dot_S512x4096_S512x4096_S512x512_1_1_0_0_n_n.contr.Idx) :
    (dot_S512x4096_S512x4096_S512x512_1_1_0_0_n_n.lhsIdx i k 1).val = (k ⟨0, by decide⟩).val :=
  dot_S512x4096_S512x4096_S512x512_1_1_0_0_n_n.lhsIdx_val_of_single rfl i k
theorem rhs_axis0 (i : S512x512.Idx) (k : dot_S512x4096_S512x4096_S512x512_1_1_0_0_n_n.contr.Idx) :
    (dot_S512x4096_S512x4096_S512x512_1_1_0_0_n_n.rhsIdx i k 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_axis1 (i : S512x512.Idx) (k : dot_S512x4096_S512x4096_S512x512_1_1_0_0_n_n.contr.Idx) :
    (dot_S512x4096_S512x4096_S512x512_1_1_0_0_n_n.rhsIdx i k 1).val = (k ⟨0, by decide⟩).val :=
  dot_S512x4096_S512x4096_S512x512_1_1_0_0_n_n.rhsIdx_val_of_single rfl i k

/-- The body's stored value at entry (p, q) of the block: row p of the x block against row q of the W block. -/
theorem payload_apply (x0 : FVec Ideal S512x4096 .f32) (x1 : FVec Ideal S512x4096 .bf16) (p q : Fin 512) :
    k1_pay1 (F := Ideal) x0 x1 (ix2 p q)
      = ∑ d : Fin 4096, x0 (ix2 (n0 := 512) (n1 := 4096) p d) * x1 (ix2 (n0 := 512) (n1 := 4096) q d) := by
  unfold k1_pay1
  show matmul dot_S512x4096_S512x4096_S512x512_1_1_0_0_n_n none (truncf .bf16 (shapeCast S512x4096 x0 shapeCasts_S512x4096_S512x4096) bitsLt_bf16_f32)
    (shapeCast S512x4096 x1 shapeCasts_S512x4096_S512x4096) (constant S512x512 .f32 0x00000000#32) (ix2 p q) = _
  rw [shapeCast_self, shapeCast_self]
  simp only [matmul]
  rw [Ideal.matmul_constant_zero_apply, ← Equiv.sum_comp (contrEquiv1 dot_S512x4096_S512x4096_S512x512_1_1_0_0_n_n 4096 rfl rfl).symm]
  refine Finset.sum_congr rfl fun d _ => ?_
  have hd := contrEquiv1_symm_val dot_S512x4096_S512x4096_S512x512_1_1_0_0_n_n 4096 rfl rfl d
  have el : dot_S512x4096_S512x4096_S512x512_1_1_0_0_n_n.lhsIdx (ix2 p q) ((contrEquiv1 dot_S512x4096_S512x4096_S512x512_1_1_0_0_n_n 4096 rfl rfl).symm d) = ix2 (n0 := 512) (n1 := 4096) p d := funext fun a => Fin.ext (by
    match a with
    | ⟨0, _⟩ => exact lhs_axis0 _ _
    | ⟨1, _⟩ => exact (lhs_axis1 _ _).trans hd)
  have er : dot_S512x4096_S512x4096_S512x512_1_1_0_0_n_n.rhsIdx (ix2 p q) ((contrEquiv1 dot_S512x4096_S512x4096_S512x512_1_1_0_0_n_n 4096 rfl rfl).symm d) = ix2 (n0 := 512) (n1 := 4096) q d := funext fun a => Fin.ext (by
    match a with
    | ⟨0, _⟩ => exact rhs_axis0 _ _
    | ⟨1, _⟩ => exact (rhs_axis1 _ _).trans hd)
  rw [el, er]
  rfl

/-! ## A point's block is a block of the projection -/

variable (V : (c : Dev nD) → (b : Ref sig .tc) → Buf (Elt Ideal) ((c : Thread nD τ).loc b))

theorem hz : (![0, 0] : Fin 2 → Nat) = fun _ => 0 := funext fun a => by fin_cases a <;> rfl

/-- How the three windows move over the 128 grid points: the x block follows the output block's rows, the W block
    follows the output block's columns (as ROWS of W), both span every column; the output block's indices stay
    below 16 and 8. -/
theorem idx_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 15 ∧ win1_2.index t (1 : Fin 2) ≤ 7 :=
  (by decide +kernel : ∀ t : Fin grid1.N, _)

/-- Every one of the 16 × 8 output blocks is some point's. -/
theorem idx_onto : ∀ (q0 : Fin 16) (q1 : Fin 8), ∃ t : Fin cfg1.N, win1_2.index t = ![q0.val, q1.val] :=
  (by decide +kernel : ∀ (q0 : Fin 16) (q1 : Fin 8), ∃ t : Fin grid1.N, win1_2.index t = ![q0.val, q1.val])

/-- Entry (p, d) of the x block at point t is the flattened x at row (output block row)·512 + p, column d. -/
theorem xblk_apply (c : Dev nD) (t : Fin cfg1.N) (p : Fin 512) (d : Fin 4096) (i : S8192x4096.Idx)
    (h0 : (i 0).val = win1_2.index t (0 : Fin 2) * 512 + p.val) (h1 : (i 1).val = d.val) :
    iblk1 V c 0 t (ix2 p d) = V c main_v5 i := by
  obtain ⟨e0, e1, -⟩ := idx_facts t
  show V c main_v5 (((cfg1.win 0).blk t).view.emb (ix2 p d)) = V c main_v5 i
  refine congrArg (V c main_v5) (funext fun a => Fin.ext ?_)
  match a with
  | ⟨0, _⟩ => show win1_0.index t (0 : Fin 2) * 512 + 1 * p.val = (i 0).val; omega
  | ⟨1, _⟩ => show win1_0.index t (1 : Fin 2) * 4096 + 1 * d.val = (i 1).val; omega

/-- Entry (q, d) of the W block at point t is W at row (output block column)·512 + q, column d. -/
theorem wblk_apply (c : Dev nD) (t : Fin cfg1.N) (q : Fin 512) (d : Fin 4096) (i : S4096x4096.Idx)
    (h0 : (i 0).val = win1_2.index t (1 : Fin 2) * 512 + q.val) (h1 : (i 1).val = d.val) :
    iblk1 V c 1 t (ix2 q d) = V c main_v4 i := by
  obtain ⟨-, -, e2, e3, -⟩ := idx_facts t
  show V c main_v4 (((cfg1.win 1).blk t).view.emb (ix2 q d)) = V c main_v4 i
  refine congrArg (V c main_v4) (funext fun a => Fin.ext ?_)
  match a with
  | ⟨0, _⟩ => show win1_1.index t (0 : Fin 2) * 512 + 1 * q.val = (i 0).val; omega
  | ⟨1, _⟩ => show win1_1.index t (1 : Fin 2) * 4096 + 1 * d.val = (i 1).val; omega

/-- WHAT POINT t WRITES BACK is block t of the projection of the arrays the region finds. -/
theorem flushed_eq (c : Dev nD) (t : Fin cfg1.N) :
    (dat1 V c).flushed 2 t = ((cfg1.win 2).blk t).view.read (Elt Ideal) (Cert.LowRank.project (V c main_v5) (V c main_v4)) := by
  show (cfg1.win 2).cut (grid1.coords t) ((dat1 V c).after 2 t) = _
  rw [after1_2]
  unfold out1_2
  rw [View.canon_unit_zero hz]
  simp only [View.ld_unit_zero (S := S512x4096) hz]
  funext j
  obtain ⟨p, q, rfl⟩ : ∃ (p : Fin 512) (q : Fin 512), j = ix2 p q := ⟨j 0, j 1, eq_ix2 j⟩
  show k1_pay1 (F := Ideal) (iblk1 V c 0 t) (iblk1 V c 1 t) (ix2 p q)
    = Cert.LowRank.project (V c main_v5) (V c main_v4) (((cfg1.win 2).blk t).view.emb (ix2 p q))
  refine (payload_apply (iblk1 V c 0 t) (iblk1 V c 1 t) p q).trans ?_
  unfold Cert.LowRank.project
  refine Finset.sum_congr rfl fun d _ => ?_
  rw [xblk_apply V c t p d (ix2 (n0 := 8192) (n1 := 4096) ((((cfg1.win 2).blk t).view.emb (ix2 p q)) 0) d)
        (by show win1_2.index t (0 : Fin 2) * 512 + 1 * p.val = win1_2.index t (0 : Fin 2) * 512 + p.val; omega) rfl,
    wblk_apply V c t q d (ix2 (n0 := 4096) (n1 := 4096) ((((cfg1.win 2).blk t).view.emb (ix2 p q)) 1) d)
        (by show win1_2.index t (1 : Fin 2) * 512 + 1 * q.val = win1_2.index t (1 : Fin 2) * 512 + q.val; omega) rfl]

/-! ## The blocks tile the array -/

/-- An index of the output is in point t's block iff each coordinate is in the block's range on its axis. -/
theorem mem_blk (t : Fin cfg1.N) (i : S8192x4096.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v6).slice (win1_2.rect t)).set ↔ _
  rw [View.set_slice_whole, Rect.mem_set_unit]
  exact Iff.rfl

/-- Entry (m, n) lies in the block with row index m / 512 and column index n / 512. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-- THE OUTPUT ARRAY when the region ends: the projection of the arrays the region found. -/
theorem array_eq (c : Dev nD) :
    (dat1 V c).arrAt 2 cfg1.N = Cert.LowRank.project (V c main_v5) (V c main_v4) :=
  (dat1 V c).arrAt_eq_of_cover 2 _ (fun t _ => flushed_eq V c t) cover

end Cert.KernelIdeal.Project

end
-- ==== Proof.KernelValue.lean ====
/-
  The kernel program's result as one function of its four arguments.

  Between the launch and the return the program is: three format changes and a reshape of S into a column; the
  first region (W from U, the S column, Vh); a reshape of x to 8192 × 4096; the second region (rows of x against
  rows of W); a reshape back to three axes. At the extended reals a format change is the identity and a reshape
  keeps the row-major position, so entry (b, s, o) of the result is entry (b·2048 + s, o) of the flat product,
  row b·2048 + s of the flat x is row (b, s) of x, and entry (r, 0) of the column is S[r]. With the two regions'
  arrays read as the weight and the projection, the result is the specification's, entry by entry.
-/
import proofs.«125711_j34248069218802_1_alg».proof.Proof.BuildW
import proofs.«125711_j34248069218802_1_alg».proof.Proof.Project
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo

/-! ## The host stretches, one buffer at a time -/

section Stretches
variable {F : FTy → Type} [FloatOps F] (X : Valuation τ sig (Elt F))

/-- The first stretch leaves U in the narrower format, -/
theorem pre_u : (StableHlo.after hostOps0 X (Proc.devRef .tc main_v0) : FVec F S4096x4096 .bf16)
    = truncf .bf16 (X (Proc.devRef .tc main_arg1) : FVec F S4096x4096 .f32) bitsLt_bf16_f32 := by
  dsimp only [hostOps0]; after_results
/-- Vh likewise, -/
theorem pre_vh : (StableHlo.after hostOps0 X (Proc.devRef .tc main_v1) : FVec F S4096x4096 .bf16)
    = truncf .bf16 (X (Proc.devRef .tc main_arg3) : FVec F S4096x4096 .f32) bitsLt_bf16_f32 := by
  dsimp only [hostOps0]; after_results
/-- S in the narrower format laid out as a column, -/
theorem pre_scol : (StableHlo.after hostOps0 X (Proc.devRef .tc main_v3) : FVec F S4096x1 .bf16)
    = shapeCast S4096x1 (truncf .bf16 (X (Proc.devRef .tc main_arg2) : FVec F S4096 .f32) bitsLt_bf16_f32) shapeCasts_S4096_S4096x1 := by
  dsimp only [hostOps0]; after_results; rfl
/-- and x as it was. -/
theorem pre_x : (StableHlo.after hostOps0 X (Proc.devRef .tc main_arg0) : FVec F S4x2048x4096 .f32)
    = X (Proc.devRef .tc main_arg0) := by
  dsimp only [hostOps0]; after_results

/-- The middle stretch flattens x to 8192 rows -/
theorem mid_x : (StableHlo.after hostOps1 X (Proc.devRef .tc main_v5) : FVec F S8192x4096 .f32)
    = shapeCast S8192x4096 (X (Proc.devRef .tc main_arg0) : FVec F S4x2048x4096 .f32) shapeCasts_S4x2048x4096_S8192x4096 := by
  dsimp only [hostOps1]; after_results; rfl
/-- and leaves W as the first region wrote it. -/
theorem mid_w : (StableHlo.after hostOps1 X (Proc.devRef .tc main_v4) : FVec F S4096x4096 .bf16)
    = X (Proc.devRef .tc main_v4) := by
  dsimp only [hostOps1]; after_results

/-- The last stretch gives the flat product its three axes back. -/
theorem post_out : (StableHlo.after hostOps2 X (Proc.devRef .tc main_v7) : FVec F S4x2048x4096 .f32)
    = shapeCast S4x2048x4096 (X (Proc.devRef .tc main_v6) : FVec F S8192x4096 .f32) shapeCasts_S8192x4096_S4x2048x4096 := by
  dsimp only [hostOps2]; after_results; rfl

end Stretches

/-! ## Reshapes and format changes at an entry -/

/-- A change of float format is the identity on extended reals. -/
theorem truncf_id {s : Shape} (a : FVec Ideal s .f32) : (truncf .bf16 a bitsLt_bf16_f32 : FVec Ideal s .bf16) = a := rfl

/-- Row b·2048 + q of the flattened x is row (b, q) of x. -/
theorem flat_x_apply (x : FVec Ideal S4x2048x4096 .f32) (b : Fin 4) (q : Fin 2048) (d : Fin 4096) (h : b.val * 2048 + q.val < 8192) :
    shapeCast S8192x4096 x shapeCasts_S4x2048x4096_S8192x4096 (ix2 (n0 := 8192) (n1 := 4096) ⟨b.val * 2048 + q.val, h⟩ d)
      = x (ix3 (n0 := 4) (n1 := 2048) (n2 := 4096) b q d) :=
  shapeCast_apply x shapeCasts_S4x2048x4096_S8192x4096 _ (ix3 (n0 := 4) (n1 := 2048) (n2 := 4096) b q d) (by
    rw [Shape.rowMajor_val_three, Shape.rowMajor_val_two]
    show (b.val * 2048 + q.val) * 4096 + d.val = (b.val * 2048 + q.val) * 4096 + d.val
    rfl)

/-- Entry (r, 0) of the column is entry r of the vector. -/
theorem column_apply (s : FVec Ideal S4096 .bf16) (r : Fin 4096) :
    shapeCast S4096x1 s shapeCasts_S4096_S4096x1 (ix2 (n0 := 4096) (n1 := 1) r 0) = s (ix1 (n := 4096) r) :=
  shapeCast_apply s shapeCasts_S4096_S4096x1 _ (ix1 (n := 4096) r) (by
    rw [Shape.rowMajor_val_one, Shape.rowMajor_val_two]
    show r.val = r.val * 1 + 0
    omega)

/-- Entry (b, q, o) of the re-shaped product is entry (b·2048 + q, o) of the flat product. -/
theorem unflat_apply (y : FVec Ideal S8192x4096 .f32) (b : Fin 4) (q : Fin 2048) (o : Fin 4096) (h : b.val * 2048 + q.val < 8192) :
    shapeCast S4x2048x4096 y shapeCasts_S8192x4096_S4x2048x4096 (ix3 (n0 := 4) (n1 := 2048) (n2 := 4096) b q o)
      = y (ix2 (n0 := 8192) (n1 := 4096) ⟨b.val * 2048 + q.val, h⟩ o) :=
  shapeCast_apply y shapeCasts_S8192x4096_S4x2048x4096 _ (ix2 (n0 := 8192) (n1 := 4096) ⟨b.val * 2048 + q.val, h⟩ o) (by
    rw [Shape.rowMajor_val_three, Shape.rowMajor_val_two]
    show (b.val * 2048 + q.val) * 4096 + o.val = (b.val * 2048 + q.val) * 4096 + o.val
    rfl)

/-! ## The result -/

variable (m : (ℓ : Loc nD τ sig) → Buf (Elt Ideal) ℓ) (ρ : Dev nD → PrngReg)

/-- W as the second region finds it: the weight of U, the S column and Vh. -/
theorem w_entry (c : Dev nD) :
    (V3 m ρ c main_v4 : FVec Ideal S4096x4096 .bf16)
      = Cert.LowRank.weight (m ((c : Thread nD τ).loc main_arg1))
          (shapeCast S4096x1 (m ((c : Thread nD τ).loc main_arg2) : FVec Ideal S4096 .f32) shapeCasts_S4096_S4096x1)
          (m ((c : Thread nD τ).loc main_arg3)) := by
  refine (mid_w (W2 m ρ c)).trans ((W2_arr m ρ c 3).trans ((Cert.KernelIdeal.BuildW.array_eq (V1 m ρ) c).trans ?_))
  show Cert.LowRank.weight (StableHlo.after hostOps0 (W0 m ρ c) (Proc.devRef .tc main_v0)) (StableHlo.after hostOps0 (W0 m ρ c) (Proc.devRef .tc main_v3))
    (StableHlo.after hostOps0 (W0 m ρ c) (Proc.devRef .tc main_v1)) = _
  rw [pre_u (W0 m ρ c), pre_scol (W0 m ρ c), pre_vh (W0 m ρ c)]
  rfl

/-- The flat x as the second region finds it. -/
theorem x_entry (c : Dev nD) :
    (V3 m ρ c main_v5 : FVec Ideal S8192x4096 .f32)
      = shapeCast S8192x4096 (m ((c : Thread nD τ).loc main_arg0) : FVec Ideal S4x2048x4096 .f32) shapeCasts_S4x2048x4096_S8192x4096 := by
  refine (mid_x (W2 m ρ c)).trans ?_
  refine congrArg (fun z : FVec Ideal S4x2048x4096 .f32 => shapeCast S8192x4096 z shapeCasts_S4x2048x4096_S8192x4096) ?_
  exact (W2_of_ne m ρ c main_arg0 (by decide)).trans (pre_x (W0 m ρ c))

/-- THE RESULT ARRAY at the return is the specification's result of the four arguments. -/
theorem result_eq (c : Dev nD) :
    (W5 m ρ c (Proc.devRef .tc main_v7) : FVec Ideal S4x2048x4096 .f32)
      = Cert.LowRank.result (m ((c : Thread nD τ).loc main_arg0)) (m ((c : Thread nD τ).loc main_arg1))
          (m ((c : Thread nD τ).loc main_arg2)) (m ((c : Thread nD τ).loc main_arg3)) := by
  refine (post_out (W4 m ρ c)).trans ?_
  have e4 : (W4 m ρ c (Proc.devRef .tc main_v6) : FVec Ideal S8192x4096 .f32)
      = Cert.LowRank.project (V3 m ρ c main_v5) (V3 m ρ c main_v4) :=
    (W4_arr m ρ c 2).trans (Cert.KernelIdeal.Project.array_eq (V3 m ρ) c)
  rw [e4, x_entry m ρ c, w_entry m ρ c]
  funext i
  obtain ⟨b, q, o, rfl⟩ : ∃ (b : Fin 4) (q : Fin 2048) (o : Fin 4096), i = ix3 b q o := ⟨i 0, i 1, i 2, eq_ix3 i⟩
  have h : b.val * 2048 + q.val < 8192 := by have := b.isLt; have := q.isLt; omega
  rw [unflat_apply _ b q o h]
  exact Cert.LowRank.project_weight_eq _ _ _ _ _ _ (fun b' q' d h' => flat_x_apply _ b' q' d h') (fun r => column_apply _ r) b q o h

end Cert.KernelIdeal.KernelValue

end
-- ==== Proof.RefValue.lean ====
/-
  The reference program's result, entry by entry, is the three-axis result of the specification:

    out[b, s, o] = Σ_d x[b, s, d] · Σ_r U[o, r] · (S[r] · Vh[r, d]).

  The outer contraction pairs x's last axis with the weight's second axis, the inner one U's second axis with the
  first axis of the scaled Vh, and the scale reaches entry (r, d) through two broadcasts that keep only r.
-/
import proofs.«125711_j34248069218802_1_alg».proof.Proof.Gen.ReferenceIdeal.Read
import proofs.«125711_j34248069218802_1_alg».proof.Proof.Spec

noncomputable section

namespace Cert.ReferenceIdeal.RefValue

open Cert.ReferenceIdeal Cert.ReferenceIdeal.Read Idealize.ShloMosaic Idealize.ShloMosaic.ValueIdx

/-- The left operand of the outer contraction at (i, d) is x[b, s, d]. -/
theorem outer_lhs (i : S4x2048x4096.Idx) (d : Fin 4096) :
    lidx_main_v4 i d = ix3 (n0 := 4) (n1 := 2048) (n2 := 4096) (i 0) (i 1) d :=
  funext fun a => Fin.ext (by match a with | ⟨0, _⟩ => rfl | ⟨1, _⟩ => rfl | ⟨2, _⟩ => rfl)

/-- The left operand of the inner contraction, under the outer one, is U[o, r]. -/
theorem inner_lhs (i : S4x2048x4096.Idx) (d r : Fin 4096) :
    lidx_main_v3 (ridx_main_v4 i d) r = ix2 (n0 := 4096) (n1 := 4096) (i 2) r :=
  funext fun a => Fin.ext (by match a with | ⟨0, _⟩ => rfl | ⟨1, _⟩ => rfl)

/-- The right operand of the inner contraction, under the outer one, is entry (r, d) of the scaled Vh. -/
theorem inner_rhs (i : S4x2048x4096.Idx) (d r : Fin 4096) :
    ridx_main_v3 (ridx_main_v4 i d) r = ix2 (n0 := 4096) (n1 := 4096) r d :=
  funext fun a => Fin.ext (by match a with | ⟨0, _⟩ => rfl | ⟨1, _⟩ => rfl)

/-- The two broadcasts of the scale keep the row: entry (r, d) reads S[r]. -/
theorem scale_idx (r d : Fin 4096) :
    idx_main_v0 (idx_main_v1 (ix2 (n0 := 4096) (n1 := 4096) r d)) = ix1 (n := 4096) r :=
  funext fun a => Fin.ext (by match a with | ⟨0, _⟩ => rfl)

/-- The reference's result is the specification's result of its four arguments. -/
theorem value_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal)) :
    val_main_v4 (F := Ideal) x0 x1 x2 x3 = Cert.LowRank.result x0 x1 x2 x3 := by
  funext i
  rw [val_main_v4_apply]
  unfold Cert.LowRank.result
  refine Finset.sum_congr rfl fun d _ => ?_
  rw [outer_lhs, val_main_v3_apply]
  refine congrArg (x0 (ix3 (i 0) (i 1) d) * ·) (Finset.sum_congr rfl fun r _ => ?_)
  rw [inner_lhs, inner_rhs, val_main_v2_apply, val_main_v1_apply, val_main_v0_apply, scale_idx]
  rfl

end Cert.ReferenceIdeal.RefValue

end
-- ==== Proof.lean ====
/-
  A low-rank linear layer, out[b, s, o] = Σ_d x[b, s, d] · W[o, d] with W = U · diag(S) · Vh, computed by two
  tiled kernels against its two-line reference; the certificate that the two agree over the extended reals.

  The kernel program narrows U, S, Vh (the identity on extended reals), lays S out as a column, builds W block
  by block (512 × 1024 blocks, each a full-length contraction of U's rows with Vh's columns scaled row by row),
  flattens x to 8192 rows, multiplies 512-row blocks of x with 512-row blocks of W along their common second
  axis, and gives the product its three axes back. The reference broadcasts S over Vh's columns, multiplies,
  and contracts twice. Entry by entry both are

      Σ_d x[b, s, d] · Σ_r U[o, r] · (S[r] · Vh[r, d]),

  the kernel with Vh[r, d] · S[r] where the reference has S[r] · Vh[r, d]: commutativity of the product is the
  only law used, no sum is regrouped, so the inputs' finiteness is never opened.

  Modules: Proof/Spec.lean (the weight, the projection, the result, and the law joining them);
  Proof/BuildW.lean and Proof/Project.lean (each region's output array as the weight / the projection of the
  arrays it finds: the body's block at an entry, the blocks as restrictions of one function, the tiling);
  Proof/KernelRun.lean (the run with the result array named); Proof/KernelValue.lean (the host stretches and
  the reshapes: the result array is the specification's); Proof/RefValue.lean (the reference's result is the
  specification's). The three frames are the generated ones; no rewrite was applied when the kernel was
  idealized, so that conjunct is trivial.
-/
import proofs.«125711_j34248069218802_1_alg».proof.Defs
import proofs.«125711_j34248069218802_1_alg».proof.Proof.Gen.Kernel
import proofs.«125711_j34248069218802_1_alg».proof.Proof.Gen.Kernel.Frame
import proofs.«125711_j34248069218802_1_alg».proof.Proof.Gen.KernelIdeal
import proofs.«125711_j34248069218802_1_alg».proof.Proof.Gen.KernelIdeal.Frame
import proofs.«125711_j34248069218802_1_alg».proof.Proof.Gen.ReferenceIdeal
import proofs.«125711_j34248069218802_1_alg».proof.Proof.Gen.ReferenceIdeal.Run
import proofs.«125711_j34248069218802_1_alg».proof.Proof.Gen.ReferenceIdeal.Read
import proofs.«125711_j34248069218802_1_alg».proof.Proof.Gen.Pre_finite_inputs
import proofs.«125711_j34248069218802_1_alg».proof.Proof.KernelRun
import proofs.«125711_j34248069218802_1_alg».proof.Proof.KernelValue
import proofs.«125711_j34248069218802_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories agreeing on the four arguments both programs end with the specification's result of them. -/
theorem algebraic : Cert.algebraic_KernelIdeal_ReferenceIdeal := by
  intro m ρ m' ρ' _ hagree
  refine ⟨fun c => Cert.LowRank.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v4_eq, Cert.ReferenceIdeal.RefValue.value_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
